-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x256 : Shape := ⟨2, ![256, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : IVec S2x600000 32) (main_arg3 : FVec F S256x256 .f32) (main_arg4 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S100000x128 : Shape := ⟨2, ![100000, 128]⟩
abbrev S2x600000 : Shape := ⟨2, ![2, 600000]⟩
abbrev S256x256 : Shape := ⟨2, ![256, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S256x128 : Shape := ⟨2, ![256, 128]⟩
abbrev S128x256 : Shape := ⟨2, ![128, 256]⟩
abbrev S1x256 : Shape := ⟨2, ![1, 256]⟩
abbrev S100000x256 : Shape := ⟨2, ![100000, 256]⟩
abbrev S5000x128 : Shape := ⟨2, ![5000, 128]⟩
abbrev S5000x256 : Shape := ⟨2, ![5000, 256]⟩

abbrev nBuf : Space → Nat
  | .hbm => 40
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S256x256, .f32⟩
  | .hbm, ⟨4, _⟩ => ⟨S256, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S256x128, .f32⟩
  | .hbm, ⟨35, _⟩ => ⟨S128x256, .f32⟩
  | .hbm, ⟨36, _⟩ => ⟨S256x128, .f32⟩
  | .hbm, ⟨37, _⟩ => ⟨S128x256, .f32⟩
  | .hbm, ⟨38, _⟩ => ⟨S1x256, .f32⟩
  | .hbm, ⟨39, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S256x256_S256x128_0_0 : S256x256.Slices ![0, 0] S256x128
  transposes_S256x128_S128x256_1_0 : S256x128.Transposes [1, 0] S128x256
  slices_S256x256_S256x128_0_128 : S256x256.Slices ![0, 128] S256x128
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x256 : Shape := ⟨2, ![256, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S256x256, .f32⟩
  | .hbm, ⟨4, _⟩ => ⟨S256, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x256, .f32⟩
  | .hbm, ⟨35, _⟩ => ⟨S256x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x256_S256x256_S100000x256_1_0_0_1_n_n_wf : DotDims.WF S100000x256 S256x256 S100000x256 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Spec.lean ====
/- The value both programs compute, as one function of the arrays, and the one law that joins the two sides.

   For a node r and an output feature j, with X the node's own features (128 wide), A the mean of its
   neighbours' features (128 wide), W the 256 x 256 weight matrix (one row per output feature) and b the bias,

     out (r, j) = max ( (sum_k X (r, k) * W (j, k)  +  sum_k A (r, k) * W (j, 128 + k))  +  b j , 0 ).

   One side contracts the joined row [X | A] of width 256 against row j of W in one sum; the other contracts
   the two halves separately and adds. A sum over 256 columns is the sum over the first 128 plus the sum over
   the last 128: that holds in any commutative additive monoid, so on the extended reals no finiteness is used. -/
import Idealize.ShloMosaic.Lib.ValueIdx
import Idealize.ShloMosaic.PureOps.Ideal

noncomputable section

open scoped BigOperators

namespace Cert.LinRelu

open Idealize.ShloMosaic Idealize.ShloMosaic.ValueIdx

/-- Column `k` of the first half of a 256-wide row. -/
def lo (k : Fin 128) : Fin 256 := ⟨k.val, by omega⟩
/-- Column `128 + k`: column `k` of the second half. -/
def hi (k : Fin 128) : Fin 256 := ⟨128 + k.val, by omega⟩

@[simp] theorem lo_val (k : Fin 128) : (lo k).val = k.val := rfl
@[simp] theorem hi_val (k : Fin 128) : (hi k).val = 128 + k.val := rfl

/-- A sum over 256 columns is the sum over the first 128 plus the sum over the last 128. -/
theorem sum_halves {M : Type} [AddCommMonoid M] (f : Fin 256 → M) :
    ∑ k : Fin 256, f k = ∑ k : Fin 128, f (lo k) + ∑ k : Fin 128, f (hi k) :=
  Fin.sum_univ_add (a := 128) (b := 128) (fun i : Fin (128 + 128) => f i)

/-- The layer's output: the two half-contractions added, the bias added, clamped below at zero. -/
def out (X A : (⟨2, ![100000, 128]⟩ : Shape).Idx → EReal) (W : (⟨2, ![256, 256]⟩ : Shape).Idx → EReal)
    (b : (⟨1, ![256]⟩ : Shape).Idx → EReal) : (⟨2, ![100000, 256]⟩ : Shape).Idx → EReal :=
  fun i => max ((∑ k : Fin 128, X (ix2 (i 0) k) * W (ix2 (i 1) (lo k))
      + ∑ k : Fin 128, A (ix2 (i 0) k) * W (ix2 (i 1) (hi k))) + b (ix1 (i 1))) 0

theorem out_apply (X A : (⟨2, ![100000, 128]⟩ : Shape).Idx → EReal) (W : (⟨2, ![256, 256]⟩ : Shape).Idx → EReal)
    (b : (⟨1, ![256]⟩ : Shape).Idx → EReal) (r : Fin 100000) (j : Fin 256) :
    out X A W b (ix2 r j) = max ((∑ k : Fin 128, X (ix2 r k) * W (ix2 j (lo k))
      + ∑ k : Fin 128, A (ix2 r k) * W (ix2 j (hi k))) + b (ix1 j)) 0 := rfl

end Cert.LinRelu

end
-- ==== Proof.RefValue.lean ====
/- The reference's result is `out`.

   The reference joins each node's own features and its aggregated neighbour features into one row of width
   256, contracts that row against row j of the weight matrix (read through its transpose), adds the bias
   and clamps at zero. Column k of the joined row is the own feature k for k < 128 and the aggregated feature
   k - 128 from there on, so the sum over the 256 columns splits into the two half-contractions of `out`. -/
import proofs.«104919_j1099511628115_1_alg».proof.Proof.Gen.ReferenceIdeal.Read
import proofs.«104919_j1099511628115_1_alg».proof.Proof.Spec
import Idealize.ShloMosaic.Lib.ValueIdx
import Idealize.ShloMosaic.Lib.Pipeline.Value
import Idealize.ShloMosaic.PureOps.Ideal.Laws

noncomputable section

open scoped BigOperators

namespace Cert.LinRelu

open Cert.ReferenceIdeal Cert.ReferenceIdeal.Gen Cert.ReferenceIdeal.Read Idealize.ShloMosaic Idealize.ShloMosaic.ValueIdx

variable (x0 x1 : (⟨S100000x128, .f32⟩ : BufTy).Contents (Elt Ideal)) (x2 : (⟨S2x600000, .i32⟩ : BufTy).Contents (Elt Ideal))
  (x3 : (⟨S256x256, .f32⟩ : BufTy).Contents (Elt Ideal)) (x4 : (⟨S256, .f32⟩ : BufTy).Contents (Elt Ideal))

/-- The first 128 columns of the joined row are the node's own features. -/
theorem joined_lo (r : Fin 100000) (j : Fin 256) (k : Fin 128) :
    val_main_v23 (F := Ideal) x0 x1 x2 (lidx_main_v25 (ix2 r j) (lo k)) = x1 (ix2 r k) := by
  unfold val_main_v23
  exact concatenate_pair_apply_left (1 : Fin S100000x256.rank) x1 _ concatenates_S100000x128_S100000x128_S100000x256_d1 _ rfl (ix2 r k)
    (fun b => match b with | ⟨0, _⟩ => rfl | ⟨1, _⟩ => rfl)

/-- The last 128 columns of the joined row are the aggregated neighbour features. -/
theorem joined_hi (r : Fin 100000) (j : Fin 256) (k : Fin 128) :
    val_main_v23 (F := Ideal) x0 x1 x2 (lidx_main_v25 (ix2 r j) (hi k)) = val_main_v22 (F := Ideal) x0 x2 (ix2 r k) := by
  unfold val_main_v23
  exact concatenate_pair_apply_right (1 : Fin S100000x256.rank) x1 _ concatenates_S100000x128_S100000x128_S100000x256_d1 _ rfl rfl (ix2 r k)
    (fun b => match b with | ⟨0, _⟩ => fun _ => rfl | ⟨1, _⟩ => fun h => (h (Fin.ext rfl)).elim)
    (by show k.val + 128 = 128 + k.val; omega)

/-- The transposed weights at (k, j) are the weights at (j, k). -/
theorem weights_T (r : Fin 100000) (j k : Fin 256) :
    val_main_v24 (F := Ideal) x3 (ridx_main_v25 (ix2 r j) k) = x3 (ix2 j k) := by
  rw [val_main_v24_apply]
  exact congrArg x3 (funext fun a => match a with | ⟨0, _⟩ => rfl | ⟨1, _⟩ => rfl)

/-- The bias, laid along every row, at (r, j) is the bias at j. -/
theorem bias_row (r : Fin 100000) (j : Fin 256) :
    val_main_v27 (F := Ideal) x4 (ix2 r j) = x4 (ix1 j) := by
  rw [val_main_v27_apply, val_main_v26_apply]
  exact congrArg x4 (funext fun a => match a with | ⟨0, _⟩ => rfl)

/-- The reference's result, as a function of its arguments, is `out` of the own features, the aggregated
    features, the weights and the bias. -/
theorem reference_eq :
    val_main_v29 (F := Ideal) x0 x1 x2 x3 x4 = out x1 (val_main_v22 (F := Ideal) x0 x2) x3 x4 := by
  funext i
  obtain ⟨r, j, rfl⟩ : ∃ (r : Fin 100000) (j : Fin 256), i = ix2 r j := ⟨i 0, i 1, eq_ix2 i⟩
  rw [val_main_v29_apply, val_main_v28_apply, val_main_v25_apply, bias_row, val_main_call0_v0_apply,
    val_main_call0_cst_apply, out_apply, sum_halves]
  show max ((∑ k : Fin 128, val_main_v23 (F := Ideal) x0 x1 x2 (lidx_main_v25 (ix2 r j) (lo k)) * val_main_v24 (F := Ideal) x3 (ridx_main_v25 (ix2 r j) (lo k))
      + ∑ k : Fin 128, val_main_v23 (F := Ideal) x0 x1 x2 (lidx_main_v25 (ix2 r j) (hi k)) * val_main_v24 (F := Ideal) x3 (ridx_main_v25 (ix2 r j) (hi k)))
      + x4 (ix1 j)) (Ideal.ofBits .f32 0x00000000#32) = _
  rw [Ideal.ofBits_zero_f32]
  simp only [joined_lo, joined_hi, weights_T]

end Cert.LinRelu

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.Payload.lean ====
/- One grid step's result, entry by entry.

   The body loads a 5000-row block x of the nodes' own features, the matching block a of the aggregated
   neighbour features, the two 128 x 256 halves wd and wa of the transposed weights and the bias row b, and
   stores  max ((x . wd + a . wa) + b, 0).  Over the extended reals the narrowing of the operands to bf16 is the
   identity and a matrix product into the zero accumulator is the plain sum over the contracted column, so
   entry (p, q) of the stored block is

     max ((sum_k x (p, k) * wd (k, q) + sum_k a (p, k) * wa (k, q)) + b (0, q), 0). -/
import proofs.«104919_j1099511628115_1_alg».proof.Proof.Gen.KernelIdeal.Skeleton
import proofs.«104919_j1099511628115_1_alg».proof.Proof.LibDotRead
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LinRelu

open Cert.KernelIdeal Cert.KernelIdeal.Gen Idealize.ShloMosaic Idealize.ShloMosaic.ValueIdx

/-- A 5000 x 128 by 128 x 256 product into the zero accumulator, read at (p, q): the sum over the 128 contracted
    columns. -/
theorem block_product_apply (l : FVec Ideal S5000x128 .bf16) (r : FVec Ideal S128x256 .bf16) (p : Fin 5000) (q : Fin 256) :
    matmul (F := Ideal) dot_S5000x128_S128x256_S5000x256_1_0_0_1_n_n none l r (constant (F := Ideal) S5000x256 .f32 0x00000000#32) (ix2 p q)
      = ∑ k : Fin 128, l (ix2 p k) * r (ix2 k q) := by
  simp only [matmul]
  rw [Ideal.matmul_constant_zero_apply]
  exact Cert.DotRead.sum_contr_plain (m := 5000) (k := 128) (n := 256) _ l r p q

/-- Entry (p, q) of the block one grid step stores. -/
theorem payload_apply (x a : Vec Ideal S5000x128 .f32) (wd wa : Vec Ideal S128x256 .f32) (b : Vec Ideal S1x256 .f32)
    (p : Fin 5000) (q : Fin 256) :
    k0_pay1 (F := Ideal) x a wd wa b (ix2 p q)
      = max ((∑ k : Fin 128, x (ix2 p k) * wd (ix2 k q) + ∑ k : Fin 128, a (ix2 p k) * wa (ix2 k q))
          + b (ix2 (0 : Fin 1) q)) 0 := by
  unfold k0_pay1
  simp only [shapeCast_self]
  show max ((matmul (F := Ideal) dot_S5000x128_S128x256_S5000x256_1_0_0_1_n_n none (truncf (F := Ideal) .bf16 x bitsLt_bf16_f32) (truncf (F := Ideal) .bf16 wd bitsLt_bf16_f32) (constant (F := Ideal) S5000x256 .f32 0x00000000#32) (ix2 p q)
      + matmul (F := Ideal) dot_S5000x128_S128x256_S5000x256_1_0_0_1_n_n none (truncf (F := Ideal) .bf16 a bitsLt_bf16_f32) (truncf (F := Ideal) .bf16 wa bitsLt_bf16_f32) (constant (F := Ideal) S5000x256 .f32 0x00000000#32) (ix2 p q))
      + broadcastTo S5000x256 b broadcasts_S1x256_S5000x256 (ix2 p q)) (Ideal.ofBits .f32 0x00000000#32) = _
  rw [block_product_apply, block_product_apply, ValueIdx.broadcastTo_1b_ab_apply, Ideal.ofBits_zero_f32]
  rfl

end Cert.LinRelu

end
-- ==== Proof.KernelValue.lean ====
/- The kernel's result array is `out`.

   Before the launch the program computes, with the reference's own operations, the aggregated neighbour
   features; it cuts the weight matrix into its left and right 256 x 128 halves and transposes each, and lays
   the bias out as one row. Grid step t then works on rows 5000 t .. 5000 t + 4999: it reads that block of the
   nodes' own features and of the aggregated features, the two whole transposed halves and the bias row, and
   writes that block of rows of the result. Entry (k, q) of a transposed half is the weight (q, k), respectively
   (q, 128 + k), so what step t writes is exactly the block of `out`; the twenty blocks tile the 100000 rows. -/
import proofs.«104919_j1099511628115_1_alg».proof.Proof.Gen.KernelIdeal.Value
import proofs.«104919_j1099511628115_1_alg».proof.Proof.Gen.ReferenceIdeal.Read
import proofs.«104919_j1099511628115_1_alg».proof.Proof.Spec
import proofs.«104919_j1099511628115_1_alg».proof.Proof.Payload
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.LinRelu

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the launch finds -/

/-- The aggregated neighbour features, as a function of the source features and the edge list: the program
    computes them with the same operations as the reference, so they are named by the reference's stage. -/
abbrev aggregated (c : Dev nD) : S100000x128.Idx → EReal :=
  Cert.ReferenceIdeal.Read.val_main_v22 (F := Ideal) (m ((c : Thread nD τ).loc main_arg0)) (m ((c : Thread nD τ).loc main_arg2))

/-- The result both programs end with, on core `c`. -/
abbrev result (c : Dev nD) : S100000x256.Idx → EReal :=
  out (m ((c : Thread nD τ).loc main_arg1)) (aggregated m c) (m ((c : Thread nD τ).loc main_arg3)) (m ((c : Thread nD τ).loc main_arg4))

theorem aggregated_eq (c : Dev nD) : (V m c main_v22 : S100000x128.Idx → EReal) = aggregated m c := by
  dsimp only [V, hostOps0]; after_results_simp <;> rfl

/-- The left half of the weights, transposed. -/
theorem left_half_eq (c : Dev nD) : (V m c main_v24 : S128x256.Idx → EReal)
    = transpose S128x256 [1, 0] (extractStridedSlice S256x128 ![0, 0] (m ((c : Thread nD τ).loc main_arg3)) slices_S256x256_S256x128_0_0) transposes_S256x128_S128x256_1_0 := by
  dsimp only [V, hostOps0]; after_results <;> rfl

/-- The right half of the weights, transposed. -/
theorem right_half_eq (c : Dev nD) : (V m c main_v26 : S128x256.Idx → EReal)
    = transpose S128x256 [1, 0] (extractStridedSlice S256x128 ![0, 128] (m ((c : Thread nD τ).loc main_arg3)) slices_S256x256_S256x128_0_128) transposes_S256x128_S128x256_1_0 := by
  dsimp only [V, hostOps0]; after_results <;> rfl

/-- The bias as one row. -/
theorem bias_row_eq (c : Dev nD) : (V m c main_v27 : S1x256.Idx → EReal)
    = shapeCast S1x256 (m ((c : Thread nD τ).loc main_arg4)) shapeCasts_S256_S1x256 := by
  dsimp only [V, hostOps0]; after_results <;> rfl

/-- Entry (k, q) of the transposed left half is the weight (q, k). -/
theorem left_half_apply (c : Dev nD) (k : Fin 128) (q : Fin 256) :
    (V m c main_v24 : S128x256.Idx → EReal) (ix2 k q) = m ((c : Thread nD τ).loc main_arg3) (ix2 q (lo k)) :=
  (congrFun (left_half_eq m c) (ix2 k q)).trans
    ((transpose_ix2_apply _ transposes_S256x128_S128x256_1_0 k q).trans
      (slice2_axis1_apply 0 (m ((c : Thread nD τ).loc main_arg3)) slices_S256x256_S256x128_0_0 q k (lo k) (by show k.val = 0 + k.val; omega)))

/-- Entry (k, q) of the transposed right half is the weight (q, 128 + k). -/
theorem right_half_apply (c : Dev nD) (k : Fin 128) (q : Fin 256) :
    (V m c main_v26 : S128x256.Idx → EReal) (ix2 k q) = m ((c : Thread nD τ).loc main_arg3) (ix2 q (hi k)) :=
  (congrFun (right_half_eq m c) (ix2 k q)).trans
    ((transpose_ix2_apply _ transposes_S256x128_S128x256_1_0 k q).trans
      (slice2_axis1_apply 128 (m ((c : Thread nD τ).loc main_arg3)) slices_S256x256_S256x128_0_128 q k (hi k) (by show 128 + k.val = 128 + k.val; rfl)))

/-- Entry (0, q) of the bias row is the bias at q. -/
theorem bias_row_apply (c : Dev nD) (q : Fin 256) :
    (V m c main_v27 : S1x256.Idx → EReal) (ix2 (0 : Fin 1) q) = m ((c : Thread nD τ).loc main_arg4) (ix1 q) :=
  (congrFun (bias_row_eq m c) (ix2 (0 : Fin 1) q)).trans (shapeCast_a_1a_apply _ shapeCasts_S256_S1x256 0 q)

/-! ## The blocks a grid step reads -/

/-- The index maps over the twenty grid steps: the two feature windows and the result window move one block of
    rows per step; the weight halves and the bias row stay in place. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem steps : cfg0.N = 20 := N_0

/-- Row p of step t's block is row 5000 t + p of the array. -/
def row (t : Fin cfg0.N) (p : Fin 5000) : Fin 100000 :=
  ⟨t.val * 5000 + p.val, by have ht : t.val < 20 := steps ▸ t.isLt; have := p.isLt; omega⟩

theorem own_block (c : Dev nD) (t : Fin cfg0.N) (p : Fin 5000) (k : Fin 128) :
    (iblk m c 0 t : S5000x128.Idx → EReal) (ix2 p k) = m ((c : Thread nD τ).loc main_arg1) (ix2 (row t p) k) := by
  obtain ⟨e00, e01, -⟩ := index_facts t
  show V m c main_arg1 (((cfg0.win 0).blk t).view.emb (ix2 p k)) = _
  rw [V_main_arg1]
  refine congrArg (m ((c : Thread nD τ).loc main_arg1)) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem aggregated_block (c : Dev nD) (t : Fin cfg0.N) (p : Fin 5000) (k : Fin 128) :
    (iblk m c 1 t : S5000x128.Idx → EReal) (ix2 p k) = aggregated m c (ix2 (row t p) k) := by
  obtain ⟨-, -, e10, e11, -⟩ := index_facts t
  show V m c main_v22 (((cfg0.win 1).blk t).view.emb (ix2 p k)) = _
  rw [aggregated_eq]
  refine congrArg (aggregated m c) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem left_half_block (c : Dev nD) (t : Fin cfg0.N) (k : Fin 128) (q : Fin 256) :
    (iblk m c 2 t : S128x256.Idx → EReal) (ix2 k q) = m ((c : Thread nD τ).loc main_arg3) (ix2 q (lo k)) := by
  obtain ⟨-, -, -, -, e20, e21, -⟩ := index_facts t
  show V m c main_v24 (((cfg0.win 2).blk t).view.emb (ix2 k q)) = _
  refine (congrArg (V m c main_v24 : S128x256.Idx → EReal) (funext fun a => Fin.ext ?_)).trans (left_half_apply m c k q)
  match a with
  | ⟨0, _⟩ => show win0_2.index t (0 : Fin 2) * 128 + 1 * k.val = k.val; omega
  | ⟨1, _⟩ => show win0_2.index t (1 : Fin 2) * 256 + 1 * q.val = q.val; omega

theorem right_half_block (c : Dev nD) (t : Fin cfg0.N) (k : Fin 128) (q : Fin 256) :
    (iblk m c 3 t : S128x256.Idx → EReal) (ix2 k q) = m ((c : Thread nD τ).loc main_arg3) (ix2 q (hi k)) := by
  obtain ⟨-, -, -, -, -, -, e30, e31, -⟩ := index_facts t
  show V m c main_v26 (((cfg0.win 3).blk t).view.emb (ix2 k q)) = _
  refine (congrArg (V m c main_v26 : S128x256.Idx → EReal) (funext fun a => Fin.ext ?_)).trans (right_half_apply m c k q)
  match a with
  | ⟨0, _⟩ => show win0_3.index t (0 : Fin 2) * 128 + 1 * k.val = k.val; omega
  | ⟨1, _⟩ => show win0_3.index t (1 : Fin 2) * 256 + 1 * q.val = q.val; omega

theorem bias_block (c : Dev nD) (t : Fin cfg0.N) (q : Fin 256) :
    (iblk m c 4 t : S1x256.Idx → EReal) (ix2 (0 : Fin 1) q) = m ((c : Thread nD τ).loc main_arg4) (ix1 q) := by
  obtain ⟨-, -, -, -, -, -, -, -, e40, e41, -⟩ := index_facts t
  show V m c main_v27 (((cfg0.win 4).blk t).view.emb (ix2 (0 : Fin 1) q)) = _
  refine (congrArg (V m c main_v27 : S1x256.Idx → EReal) (funext fun a => Fin.ext ?_)).trans (bias_row_apply m c q)
  match a with
  | ⟨0, _⟩ => show win0_4.index t (0 : Fin 2) * 1 + 1 * 0 = 0; omega
  | ⟨1, _⟩ => show win0_4.index t (1 : Fin 2) * 256 + 1 * q.val = q.val; omega

/-! ## What a grid step writes, and the whole array -/

theorem origin : (![0, 0] : Fin 2 → Nat) = fun _ => 0 := funext fun a => by fin_cases a <;> rfl

/-- Step t writes back block t of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero origin]
  simp only [View.ld_unit_zero (S := S5000x128) origin, View.ld_unit_zero (S := S128x256) origin, View.ld_unit_zero (S := S1x256) origin]
  obtain ⟨-, -, -, -, -, -, -, -, -, -, e50, e51⟩ := index_facts t
  funext y
  obtain ⟨p, q, rfl⟩ : ∃ (p : Fin 5000) (q : Fin 256), y = ix2 p q := ⟨y 0, y 1, eq_ix2 y⟩
  show k0_pay1 (F := Ideal) (iblk m c 0 t) (iblk m c 1 t) (iblk m c 2 t) (iblk m c 3 t) (iblk m c 4 t) (ix2 p q)
    = result m c (((cfg0.win 5).blk t).view.emb (ix2 p q))
  have hi5 : ((cfg0.win 5).blk t).view.emb (ix2 p q) = ix2 (row t p) q := funext fun a => Fin.ext (by
    match a with
    | ⟨0, _⟩ => show win0_5.index t (0 : Fin 2) * 5000 + 1 * p.val = t.val * 5000 + p.val; omega
    | ⟨1, _⟩ => show win0_5.index t (1 : Fin 2) * 256 + 1 * q.val = q.val; omega)
  rw [hi5, payload_apply]
  show _ = out (m ((c : Thread nD τ).loc main_arg1)) (aggregated m c) (m ((c : Thread nD τ).loc main_arg3)) (m ((c : Thread nD τ).loc main_arg4)) (ix2 (row t p) q)
  rw [out_apply]
  simp only [own_block, aggregated_block, left_half_block, right_half_block, bias_block]

/-- An index is in step t's block iff each coordinate is in the block's range on its axis. -/
theorem mem_block (t : Fin cfg0.N) (i : S100000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v28).slice (win0_5.rect t)).set ↔ _
  rw [View.set_slice_whole, Rect.mem_set_unit]
  exact Iff.rfl

/-- Every row lies in the block of the step that is its quotient by 5000. -/
theorem covered (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 20 := steps
  let t : Fin cfg0.N := ⟨(i 0).val / 5000, by rw [hN]; omega⟩
  have ht : t.val = (i 0).val / 5000 := rfl
  obtain ⟨-, -, -, -, -, -, -, -, -, -, e50, e51⟩ := index_facts t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- After the run the result array is `result`. -/
theorem final (c : Dev nD) : (dats m 0 c).arrAt 5 cfg0.N = result m c :=
  (dats m 0 c).arrAt_eq_of_cover 5 (result m c) (fun t _ => flushed_eq m c t) covered

/-- The kernel program's run: it terminates with the result array at `result` and its arguments unchanged. -/
theorem kernel_run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.LinRelu

end
-- ==== Proof.lean ====
/- A graph layer: every node's new features are  relu ([x_dst | mean of its neighbours' x_src] . W^T + b).

   Both programs first compute, with the same operations, the mean of each node's incoming neighbour features
   (a gather of source rows along the edge list, a sum per destination node, a division by the clamped edge
   count). They differ only in the dense part. The reference joins the node's own 128 features and the 128
   aggregated ones into one row of width 256 and contracts it against the rows of the 256 x 256 weight matrix W.
   The kernel never forms the joined row: it splits W into its left and right halves, and on each block of
   5000 nodes adds the two products  x_dst . W_left^T + agg . W_right^T,  then the bias, then clamps at zero.

   Over the extended reals the narrowing of the matrix operands to bf16 is the identity and a matrix product is
   the plain sum over the contracted column, so at a node r and an output feature j both programs compute

     max ((sum_{k<128} x_dst (r, k) * W (j, k) + sum_{k<128} agg (r, k) * W (j, 128 + k)) + b j, 0):

   the reference's one sum over 256 columns is the sum over the first 128 plus the sum over the last 128, which
   holds in every commutative additive monoid, so no finiteness of the inputs is used. The aggregated features
   enter both sides as the same function of the source features and the edge list and are never opened.

   Proof/Spec.lean states that function and the splitting of the sum; Proof/RefValue.lean shows the reference's
   result is it; Proof/Payload.lean reads one grid step's stored block entry by entry; Proof/KernelValue.lean
   reads the arrays the launch finds and the blocks each step reads, and assembles the twenty blocks of rows
   into the whole result. The three frame claims are the programs' runs with the result dropped, and the kernel's
   idealization rewrote nothing, so the fourth claim is trivial. -/
import proofs.«104919_j1099511628115_1_alg».proof.Defs
import proofs.«104919_j1099511628115_1_alg».proof.Proof.Gen.Kernel
import proofs.«104919_j1099511628115_1_alg».proof.Proof.Gen.Kernel.Skeleton
import proofs.«104919_j1099511628115_1_alg».proof.Proof.Gen.Kernel.Launch
import proofs.«104919_j1099511628115_1_alg».proof.Proof.Gen.Kernel.Points
import proofs.«104919_j1099511628115_1_alg».proof.Proof.Gen.Kernel.Frame
import proofs.«104919_j1099511628115_1_alg».proof.Proof.Gen.KernelIdeal
import proofs.«104919_j1099511628115_1_alg».proof.Proof.Gen.KernelIdeal.Skeleton
import proofs.«104919_j1099511628115_1_alg».proof.Proof.Gen.KernelIdeal.Launch
import proofs.«104919_j1099511628115_1_alg».proof.Proof.Gen.KernelIdeal.Points
import proofs.«104919_j1099511628115_1_alg».proof.Proof.Gen.KernelIdeal.Frame
import proofs.«104919_j1099511628115_1_alg».proof.Proof.Gen.ReferenceIdeal
import proofs.«104919_j1099511628115_1_alg».proof.Proof.Gen.Pre_finite_inputs
import proofs.«104919_j1099511628115_1_alg».proof.Proof.Gen.KernelIdeal.Value
import proofs.«104919_j1099511628115_1_alg».proof.Proof.Gen.ReferenceIdeal.Run
import proofs.«104919_j1099511628115_1_alg».proof.Proof.Gen.ReferenceIdeal.Read
import proofs.«104919_j1099511628115_1_alg».proof.Proof.RefValue
import proofs.«104919_j1099511628115_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result array: the kernel's
    twenty blocks of rows make up `out` of the arguments, and the reference's joined contraction is `out` too. -/
theorem algebraic : Cert.algebraic_KernelIdeal_ReferenceIdeal := by
  intro m ρ m' ρ' _ hagree
  refine ⟨fun c => Cert.LinRelu.result m c, Cert.LinRelu.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v29_eq _ _ _ _ _).trans (Cert.LinRelu.reference_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
